-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x2 .f32) (main_arg5 : FVec F S2 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg4
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S1x16 : Shape := ⟨2, ![1, 16]⟩
abbrev S100000x2 : Shape := ⟨2, ![100000, 2]⟩
abbrev S5000x2 : Shape := ⟨2, ![5000, 2]⟩
abbrev S3300000x2 : Shape := ⟨2, ![3300000, 2]⟩
abbrev S1x2 : Shape := ⟨2, ![1, 2]⟩

abbrev nBuf : Space → Nat
  | .hbm => 82
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S3300000, .i32⟩
  | .hbm, ⟨22, _⟩ => ⟨S3300000, .i1⟩
  | .hbm, ⟨23, _⟩ => ⟨S_, .i32⟩
  | .hbm, ⟨24, _⟩ => ⟨S3300000, .i32⟩
  | .hbm, ⟨25, _⟩ => ⟨S3300000, .i32⟩
  | .hbm, ⟨26, _⟩ => ⟨S3300000, .i32⟩
  | .hbm, ⟨27, _⟩ => ⟨S3300000x1, .i32⟩
  | .hbm, ⟨28, _⟩ => ⟨S3300000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S100000x16, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000x16, .f32⟩
  | .hbm, ⟨49, _⟩ => ⟨S3300000x1, .f32⟩
  | .hbm, ⟨50, _⟩ => ⟨S3300000x16, .f32⟩
  | .hbm, ⟨51, _⟩ => ⟨S3300000x16, .f32⟩
  | .hbm, ⟨52, _⟩ => ⟨S_, .f32⟩
  | .hbm, ⟨53, _⟩ => ⟨S100000x16, .f32⟩
  | .hbm, ⟨54, _⟩ => ⟨S3300000x1, .i32⟩
  | .hbm, ⟨55, _⟩ => ⟨S100000x16, .f32⟩
  | .hbm, ⟨56, _⟩ => ⟨S1x16, .f32⟩
  | .hbm, ⟨57, _⟩ => ⟨S100000x16, .f32⟩
  | .hbm, ⟨58, _⟩ => ⟨S100000x16, .f32⟩
  | .hbm, ⟨59, _⟩ => ⟨S_, .f32⟩
  | .hbm, ⟨60, _⟩ => ⟨S100000x16, .f32⟩
  | .hbm, ⟨61, _⟩ => ⟨S100000x16, .f32⟩
  | .hbm, ⟨62, _⟩ => ⟨S100000x2, .f32⟩
  | .hbm, ⟨63, _⟩ => ⟨S_, .i32⟩
  | .hbm, ⟨64, _⟩ => ⟨S3300000, .i32⟩
  | .hbm, ⟨65, _⟩ => ⟨S3300000, .i1⟩
  | .hbm, ⟨66, _⟩ => ⟨S_, .i32⟩
  | .hbm, ⟨67, _⟩ => ⟨S3300000, .i32⟩
  | .hbm, ⟨68, _⟩ => ⟨S3300000, .i32⟩
  | .hbm, ⟨69, _⟩ => ⟨S3300000, .i32⟩
  | .hbm, ⟨70, _⟩ => ⟨S3300000x1, .i32⟩
  | .hbm, ⟨71, _⟩ => ⟨S3300000x2, .f32⟩
  | .hbm, ⟨72, _⟩ => ⟨S3300000x1, .f32⟩
  | .hbm, ⟨73, _⟩ => ⟨S3300000x2, .f32⟩
  | .hbm, ⟨74, _⟩ => ⟨S3300000x2, .f32⟩
  | .hbm, ⟨75, _⟩ => ⟨S_, .f32⟩
  | .hbm, ⟨76, _⟩ => ⟨S100000x2, .f32⟩
  | .hbm, ⟨77, _⟩ => ⟨S3300000x1, .i32⟩
  | .hbm, ⟨78, _⟩ => ⟨S100000x2, .f32⟩
  | .hbm, ⟨79, _⟩ => ⟨S1x2, .f32⟩
  | .hbm, ⟨80, _⟩ => ⟨S100000x2, .f32⟩
  | .hbm, ⟨81, _⟩ => ⟨S100000x2, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S16x2, .f32⟩
  | .local _ .vmem, ⟨8, _⟩ => ⟨S5000x2, .f32⟩
  | .local _ .vmem, ⟨9, _⟩ => ⟨S5000x2, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S5000x16_S5000x16 : S5000x16.ShapeCasts S5000x16
  inb_S16x2_S16x2_0_0 : ∀ a, (![0, 0] : Fin 2 → Nat) a + S16x2.size a ≤ S16x2.size a
  h_S16x2 : 0 < S16x2.numel
  inb_S5000x2_S5000x2_0_0 : ∀ a, (![0, 0] : Fin 2 → Nat) a + S5000x2.size a ≤ S5000x2.size a
  h_S5000x2 : 0 < S5000x2.numel
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x2_S5000x2_1_0_0_1_n_n_wf : DotDims.WF S5000x16 S16x2 S5000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x2.size a ≤ S16x2.size a
  hwx1_1 : ∀ i : grid1.Coords, EltTy.bits .f32 = 32 ∨ (Rect.block (s := S16x2) S16x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x2.size a ≤ S100000x2.size a
  hwx1_2 : ∀ i : grid1.Coords, EltTy.bits .f32 = 32 ∨ (Rect.block (s := S100000x2) S5000x2.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x2_S5000x2_1_0_0_1_n_n : DotDims S5000x16 S16x2 S5000x2 where
  lhsContracting := [1]
  rhsContracting := [0]
  lhsNonContracting := [0]
  rhsNonContracting := [1]
  lhsBatch := []
  rhsBatch := []
  wf := dot_S5000x16_S16x2_S5000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x2.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x16 : Shape := ⟨2, ![100000, 16]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x2 : Shape := ⟨2, ![100000, 2]⟩
abbrev S3300000x2 : Shape := ⟨2, ![3300000, 2]⟩
abbrev S1x2 : Shape := ⟨2, ![1, 2]⟩

abbrev nBuf : Space → Nat
  | .hbm => 108
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S100000x16, .f32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S3300000, .i32⟩
  | .hbm, ⟨23, _⟩ => ⟨S3300000, .i1⟩
  | .hbm, ⟨24, _⟩ => ⟨S_, .i32⟩
  | .hbm, ⟨25, _⟩ => ⟨S3300000, .i32⟩
  | .hbm, ⟨26, _⟩ => ⟨S3300000, .i32⟩
  | .hbm, ⟨27, _⟩ => ⟨S3300000, .i32⟩
  | .hbm, ⟨28, _⟩ => ⟨S3300000x1, .i32⟩
  | .hbm, ⟨29, _⟩ => ⟨S3300000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000x16, .f32⟩
  | .hbm, ⟨49, _⟩ => ⟨S3300000x1, .f32⟩
  | .hbm, ⟨50, _⟩ => ⟨S3300000x16, .f32⟩
  | .hbm, ⟨51, _⟩ => ⟨S3300000x16, .f32⟩
  | .hbm, ⟨52, _⟩ => ⟨S_, .f32⟩
  | .hbm, ⟨53, _⟩ => ⟨S100000x16, .f32⟩
  | .hbm, ⟨54, _⟩ => ⟨S3300000x1, .i32⟩
  | .hbm, ⟨55, _⟩ => ⟨S100000x16, .f32⟩
  | .hbm, ⟨56, _⟩ => ⟨S1x16, .f32⟩
  | .hbm, ⟨57, _⟩ => ⟨S100000x16, .f32⟩
  | .hbm, ⟨58, _⟩ => ⟨S100000x16, .f32⟩
  | .hbm, ⟨59, _⟩ => ⟨S_, .f32⟩
  | .hbm, ⟨60, _⟩ => ⟨S100000x16, .f32⟩
  | .hbm, ⟨61, _⟩ => ⟨S100000x16, .f32⟩
  | .hbm, ⟨62, _⟩ => ⟨S100000x2, .f32⟩
  | .hbm, ⟨63, _⟩ => ⟨S_, .f32⟩
  | .hbm, ⟨64, _⟩ => ⟨S3300000, .f32⟩
  | .hbm, ⟨65, _⟩ => ⟨S_, .f32⟩
  | .hbm, ⟨66, _⟩ => ⟨S100000, .f32⟩
  | .hbm, ⟨67, _⟩ => ⟨S3300000x1, .i32⟩
  | .hbm, ⟨68, _⟩ => ⟨S100000, .f32⟩
  | .hbm, ⟨69, _⟩ => ⟨S100000, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000, .f32⟩
  | .hbm, ⟨79, _⟩ => ⟨S_, .i32⟩
  | .hbm, ⟨80, _⟩ => ⟨S3300000, .i32⟩
  | .hbm, ⟨81, _⟩ => ⟨S3300000, .i1⟩
  | .hbm, ⟨82, _⟩ => ⟨S_, .i32⟩
  | .hbm, ⟨83, _⟩ => ⟨S3300000, .i32⟩
  | .hbm, ⟨84, _⟩ => ⟨S3300000, .i32⟩
  | .hbm, ⟨85, _⟩ => ⟨S3300000, .i32⟩
  | .hbm, ⟨86, _⟩ => ⟨S3300000x1, .i32⟩
  | .hbm, ⟨87, _⟩ => ⟨S3300000, .f32⟩
  | .hbm, ⟨88, _⟩ => ⟨S3300000, .f32⟩
  | .hbm, ⟨89, _⟩ => ⟨S_, .i32⟩
  | .hbm, ⟨90, _⟩ => ⟨S3300000, .i32⟩
  | .hbm, ⟨91, _⟩ => ⟨S3300000, .i1⟩
  | .hbm, ⟨92, _⟩ => ⟨S_, .i32⟩
  | .hbm, ⟨93, _⟩ => ⟨S3300000, .i32⟩
  | .hbm, ⟨94, _⟩ => ⟨S3300000, .i32⟩
  | .hbm, ⟨95, _⟩ => ⟨S3300000, .i32⟩
  | .hbm, ⟨96, _⟩ => ⟨S3300000x1, .i32⟩
  | .hbm, ⟨97, _⟩ => ⟨S3300000x2, .f32⟩
  | .hbm, ⟨98, _⟩ => ⟨S3300000x1, .f32⟩
  | .hbm, ⟨99, _⟩ => ⟨S3300000x2, .f32⟩
  | .hbm, ⟨100, _⟩ => ⟨S3300000x2, .f32⟩
  | .hbm, ⟨101, _⟩ => ⟨S_, .f32⟩
  | .hbm, ⟨102, _⟩ => ⟨S100000x2, .f32⟩
  | .hbm, ⟨103, _⟩ => ⟨S3300000x1, .i32⟩
  | .hbm, ⟨104, _⟩ => ⟨S100000x2, .f32⟩
  | .hbm, ⟨105, _⟩ => ⟨S1x2, .f32⟩
  | .hbm, ⟨106, _⟩ => ⟨S100000x2, .f32⟩
  | .hbm, ⟨107, _⟩ => ⟨S100000x2, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_13 : Ref sig .tc := ⟨.hbm, 89, rfl⟩
abbrev main_v66 : Ref sig .tc := ⟨.hbm, 90, rfl⟩
abbrev main_v67 : Ref sig .tc := ⟨.hbm, 91, rfl⟩
abbrev main_c_14 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_15 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x2_S100000x2_1_0_0_1_n_n_wf : DotDims.WF S100000x16 S16x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

class Facts : Prop extends Facts₀ where

variable [Facts]
-- ==== Proof.Region0.lean ====
import proofs.«176523_j42374147342368_1_alg».proof.Proof.Gen.KernelIdeal.Frame
import proofs.«176523_j42374147342368_1_alg».proof.Proof.Gen.ReferenceIdeal.Read
import Idealize.ShloMosaic.Lib.Pipeline.Value
import Idealize.ShloMosaic.Lib.ValueIdx
import Idealize.ShloMosaic.PureOps.Ideal.Laws

/-!
# The first product, tile by tile, is one product

The first launch walks the 100000 rows of `x` in twenty tiles of 5000 rows; each tile is multiplied with the whole
512×16 weight and written to the same rows of the result. Read over the extended reals, narrowing the factors to
half width changes nothing and a tile's entry (r, c) is the sum over k of x(r, k) · w(k, c) — the very sum that is entry
(r, c) of the one whole product the reference takes. The tiles are disjoint row ranges that together fill the result, so
after the launch the result array IS that whole product.
-/

set_option maxRecDepth 16384

noncomputable section

namespace Cert.KernelIdeal.FirstProduct

open Cert.KernelIdeal Cert.KernelIdeal.Gen
open Idealize.ShloMosaic Idealize.ShloMosaic.TcCoe Idealize.SL.Sem
open Idealize.ShloMosaic.Pipeline (Dat)
open scoped BigOperators

/-! ## One tile's product at an index -/

/-- Entry (r, c) of a tile's product reads the left tile on row r … -/
theorem tile_lhs_0 (j : S5000x16.Idx) (q : dot_S5000x512_S512x16_S5000x16_1_0_0_1_n_n.contr.Idx) :
    (dot_S5000x512_S512x16_S5000x16_1_0_0_1_n_n.lhsIdx j q 0).val = (j 0).val := by
  unfold DotDims.lhsIdx
  rw [dif_neg (show ¬(0 : Fin S5000x512.rank) ∈ dot_S5000x512_S512x16_S5000x16_1_0_0_1_n_n.lhsBatch by decide), dif_pos (show (0 : Fin S5000x512.rank) ∈ dot_S5000x512_S512x16_S5000x16_1_0_0_1_n_n.lhsNonContracting by decide)]
  rfl
/-- … at the contracted position, -/
theorem tile_lhs_1 (j : S5000x16.Idx) (q : dot_S5000x512_S512x16_S5000x16_1_0_0_1_n_n.contr.Idx) :
    (dot_S5000x512_S512x16_S5000x16_1_0_0_1_n_n.lhsIdx j q 1).val = (q ⟨0, by decide⟩).val :=
  dot_S5000x512_S512x16_S5000x16_1_0_0_1_n_n.lhsIdx_val_of_single rfl j q
/-- and the right factor at the contracted position … -/
theorem tile_rhs_0 (j : S5000x16.Idx) (q : dot_S5000x512_S512x16_S5000x16_1_0_0_1_n_n.contr.Idx) :
    (dot_S5000x512_S512x16_S5000x16_1_0_0_1_n_n.rhsIdx j q 0).val = (q ⟨0, by decide⟩).val :=
  dot_S5000x512_S512x16_S5000x16_1_0_0_1_n_n.rhsIdx_val_of_single rfl j q
/-- … on column c. -/
theorem tile_rhs_1 (j : S5000x16.Idx) (q : dot_S5000x512_S512x16_S5000x16_1_0_0_1_n_n.contr.Idx) :
    (dot_S5000x512_S512x16_S5000x16_1_0_0_1_n_n.rhsIdx j q 1).val = (j 1).val := by
  unfold DotDims.rhsIdx
  rw [dif_neg (show ¬(1 : Fin S512x16.rank) ∈ dot_S5000x512_S512x16_S5000x16_1_0_0_1_n_n.rhsBatch by decide), dif_pos (show (1 : Fin S512x16.rank) ∈ dot_S5000x512_S512x16_S5000x16_1_0_0_1_n_n.rhsNonContracting by decide)]
  rfl

/-- Position (r, k) of the left tile. -/
abbrev tileL (j : S5000x16.Idx) (k : Fin 512) : S5000x512.Idx := fun a => match a with
  | ⟨0, _⟩ => ⟨(j 0).val, (j 0).isLt⟩
  | ⟨1, _⟩ => ⟨k.val, k.isLt⟩
/-- Position (k, c) of the right factor. -/
abbrev tileR (j : S5000x16.Idx) (k : Fin 512) : S512x16.Idx := fun a => match a with
  | ⟨0, _⟩ => ⟨k.val, k.isLt⟩
  | ⟨1, _⟩ => ⟨(j 1).val, (j 1).isLt⟩

/-- Over the extended reals the narrowing of the two factors is the identity and the accumulator starts at zero, so
    entry (r, c) of what the body stores is the plain sum over k of left(r, k) · right(k, c). -/
theorem tile_product (x0 : Vec Ideal S5000x512 .f32) (x1 : Vec Ideal S512x16 .f32) (j : S5000x16.Idx) :
    k0_pay1 (F := Ideal) x0 x1 j = ∑ k : Fin 512, x0 (tileL j k) * x1 (tileR j k) := by
  unfold k0_pay1
  refine (Ideal.matmul_constant_zero_apply dot_S5000x512_S512x16_S5000x16_1_0_0_1_n_n none _ _ j).trans ?_
  rw [← Equiv.sum_comp (ValueIdx.contrEquiv1 dot_S5000x512_S512x16_S5000x16_1_0_0_1_n_n 512 rfl rfl).symm]
  refine Finset.sum_congr rfl fun k _ => ?_
  have hk := ValueIdx.contrEquiv1_symm_val dot_S5000x512_S512x16_S5000x16_1_0_0_1_n_n 512 rfl rfl k
  have el : dot_S5000x512_S512x16_S5000x16_1_0_0_1_n_n.lhsIdx j ((ValueIdx.contrEquiv1 dot_S5000x512_S512x16_S5000x16_1_0_0_1_n_n 512 rfl rfl).symm k) = tileL j k := funext fun a => Fin.ext (by
    match a with
    | ⟨0, _⟩ => exact tile_lhs_0 _ _
    | ⟨1, _⟩ => exact (tile_lhs_1 _ _).trans hk)
  have er : dot_S5000x512_S512x16_S5000x16_1_0_0_1_n_n.rhsIdx j ((ValueIdx.contrEquiv1 dot_S5000x512_S512x16_S5000x16_1_0_0_1_n_n 512 rfl rfl).symm k) = tileR j k := funext fun a => Fin.ext (by
    match a with
    | ⟨0, _⟩ => exact (tile_rhs_0 _ _).trans hk
    | ⟨1, _⟩ => exact tile_rhs_1 _ _)
  rw [el, er]
  rfl

/-! ## The whole product at an index -/

/-- The whole product, as the reference computes it: one contraction of the full left array with the right factor. -/
abbrev whole (X : FVec Ideal Cert.ReferenceIdeal.S100000x512 .f32) (Wt : FVec Ideal Cert.ReferenceIdeal.S512x16 .f32) :
    FVec Ideal Cert.ReferenceIdeal.S100000x16 .f32 :=
  Host.dotGeneral (F := Ideal) Cert.ReferenceIdeal.dot_S100000x512_S512x16_S100000x16_1_0_0_1_n_n none X Wt

/-- Its entry (r, c) is the sum over k of X(r, k) · W(k, c). -/
theorem whole_apply (X : FVec Ideal Cert.ReferenceIdeal.S100000x512 .f32) (Wt : FVec Ideal Cert.ReferenceIdeal.S512x16 .f32)
    (i : Cert.ReferenceIdeal.S100000x16.Idx) :
    whole X Wt i = ∑ k : Fin 512, X (Cert.ReferenceIdeal.Read.lidx_main_v7 i k) * Wt (Cert.ReferenceIdeal.Read.ridx_main_v7 i k) := by
  show Host.dotGeneral (F := Ideal) Cert.ReferenceIdeal.dot_S100000x512_S512x16_S100000x16_1_0_0_1_n_n none X Wt i = _
  simp only [Host.dotGeneral]
  rw [Ideal.dotGeneral_apply, ← Equiv.sum_comp (ValueIdx.contrEquiv1 Cert.ReferenceIdeal.dot_S100000x512_S512x16_S100000x16_1_0_0_1_n_n 512 rfl rfl).symm]
  refine Finset.sum_congr rfl fun k _ => ?_
  have hk := ValueIdx.contrEquiv1_symm_val Cert.ReferenceIdeal.dot_S100000x512_S512x16_S100000x16_1_0_0_1_n_n 512 rfl rfl k
  have el : Cert.ReferenceIdeal.dot_S100000x512_S512x16_S100000x16_1_0_0_1_n_n.lhsIdx i ((ValueIdx.contrEquiv1 Cert.ReferenceIdeal.dot_S100000x512_S512x16_S100000x16_1_0_0_1_n_n 512 rfl rfl).symm k) = Cert.ReferenceIdeal.Read.lidx_main_v7 i k := funext fun a => Fin.ext (by
    match a with
    | ⟨0, _⟩ => exact Cert.ReferenceIdeal.Read.lhs_main_v7_0 _ _
    | ⟨1, _⟩ => exact (Cert.ReferenceIdeal.Read.lhs_main_v7_1 _ _).trans hk)
  have er : Cert.ReferenceIdeal.dot_S100000x512_S512x16_S100000x16_1_0_0_1_n_n.rhsIdx i ((ValueIdx.contrEquiv1 Cert.ReferenceIdeal.dot_S100000x512_S512x16_S100000x16_1_0_0_1_n_n 512 rfl rfl).symm k) = Cert.ReferenceIdeal.Read.ridx_main_v7 i k := funext fun a => Fin.ext (by
    match a with
    | ⟨0, _⟩ => exact (Cert.ReferenceIdeal.Read.rhs_main_v7_0 _ _).trans hk
    | ⟨1, _⟩ => exact Cert.ReferenceIdeal.Read.rhs_main_v7_1 _ _)
  rw [el, er]

/-! ## From tiles to the array -/

variable (V : (c : Dev nD) → (b : Ref sig .tc) → Buf (Elt Ideal) ((c : Thread nD τ).loc b))

theorem origin : (![0, 0] : Fin 2 → Nat) = fun _ => 0 := funext fun a => by fin_cases a <;> rfl

/-- Where the tiles sit: point t takes rows 5000·t … 5000·t + 4999 of the left array, all its columns, the whole right
    factor, and writes the same rows of the result. -/
theorem tile_places : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left array as the region finds it, the right factor, and what the region leaves. -/
abbrev leftArr (c : Dev nD) : FVec Ideal Cert.ReferenceIdeal.S100000x512 .f32 := V c main_arg0
abbrev rightArr (c : Dev nD) : FVec Ideal Cert.ReferenceIdeal.S512x16 .f32 := V c main_arg2

/-- WHAT POINT t WRITES BACK is tile t of the whole product of the arrays as the region finds them. -/
theorem flushed_eq (c : Dev nD) (t : Fin cfg0.N) :
    (dat0 V c).flushed 2 t = ((cfg0.win 2).blk t).view.read (Elt Ideal) (whole (leftArr V c) (rightArr V c)) := by
  show (cfg0.win 2).cut (grid0.coords t) ((dat0 V c).after 2 t) = _
  rw [after0_2]
  unfold out0_2
  rw [View.canon_unit_zero origin]
  simp only [View.ld_unit_zero (S := S5000x512) origin, View.ld_unit_zero (S := S512x16) origin]
  obtain ⟨e0, e1, e2, e3, e4, e5⟩ := tile_places t
  funext j
  show k0_pay1 (F := Ideal) (iblk0 V c 0 t) (iblk0 V c 1 t) j = whole (leftArr V c) (rightArr V c) (((cfg0.win 2).blk t).view.emb j)
  rw [tile_product, whole_apply]
  refine Finset.sum_congr rfl fun k _ => ?_
  have hl : iblk0 V c 0 t (tileL j k) = leftArr V c (Cert.ReferenceIdeal.Read.lidx_main_v7 (((cfg0.win 2).blk t).view.emb j) k) := by
    show V c main_arg0 (((cfg0.win 0).blk t).view.emb (tileL j k)) = V c main_arg0 _
    congr 1
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 512 + 1 * k.val = k.val; omega
  have hr : iblk0 V c 1 t (tileR j k) = rightArr V c (Cert.ReferenceIdeal.Read.ridx_main_v7 (((cfg0.win 2).blk t).view.emb j) k) := by
    show V c main_arg2 (((cfg0.win 1).blk t).view.emb (tileR j k)) = V c main_arg2 _
    congr 1
    funext a; apply Fin.ext
    match a with
    | ⟨0, _⟩ => show win0_1.index t (0 : Fin 2) * 512 + 1 * k.val = k.val; omega
    | ⟨1, _⟩ => show win0_1.index t (1 : Fin 2) * 16 + 1 * (j 1).val = win0_2.index t (1 : Fin 2) * 16 + 1 * (j 1).val; omega
  rw [hl, hr]

/-- An index of the result is in point t's tile iff each coordinate is in the tile's range on its axis. -/
theorem mem_tile (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v27).slice (win0_2.rect t)).set ↔ _
  rw [View.set_slice_whole, Rect.mem_set_unit]
  exact Iff.rfl

/-- The twenty tiles cover the result: row r lies in tile r / 5000. -/
theorem tiles_cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 20 := N_0
  let t : Fin cfg0.N := ⟨(i 0).val / 5000, by rw [hN]; omega⟩
  obtain ⟨e0, e1, e2, e3, e4, e5⟩ := tile_places t
  have ht : t.val = (i 0).val / 5000 := rfl
  refine ⟨t, flush0_2 t, ?_⟩
  rw [mem_tile]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- THE RESULT ARRAY after the region: the whole product of the two arrays the region was entered with. -/
theorem result_array (c : Dev nD) :
    (dat0 V c).arrAt 2 cfg0.N = whole (leftArr V c) (rightArr V c) :=
  (dat0 V c).arrAt_eq_of_cover 2 (whole (leftArr V c) (rightArr V c)) (fun t _ => flushed_eq V c t) tiles_cover

end Cert.KernelIdeal.FirstProduct

end
-- ==== Proof.Region1.lean ====
import proofs.«176523_j42374147342368_1_alg».proof.Proof.Gen.KernelIdeal.Frame
import proofs.«176523_j42374147342368_1_alg».proof.Proof.Gen.ReferenceIdeal.Read
import Idealize.ShloMosaic.Lib.Pipeline.Value
import Idealize.ShloMosaic.Lib.ValueIdx
import Idealize.ShloMosaic.PureOps.Ideal.Laws

/-!
# The second product, tile by tile, is one product

The second launch walks the 100000 rows of the hidden layer in twenty tiles of 5000 rows; each tile is multiplied with
the whole 16×2 weight and written to the same rows of the result. Read over the extended reals, narrowing the factors
to half width changes nothing and a tile's entry (r, c) is the sum over k of h(r, k) · w(k, c) — the very sum that is
entry (r, c) of the one whole product the reference takes. The tiles are disjoint row ranges that together fill the
result, so after the launch the result array IS that whole product. (The body first re-casts its left tile to the shape
it already has: the identity.)
-/

set_option maxRecDepth 16384

noncomputable section

namespace Cert.KernelIdeal.SecondProduct

open Cert.KernelIdeal Cert.KernelIdeal.Gen
open Idealize.ShloMosaic Idealize.ShloMosaic.TcCoe Idealize.SL.Sem
open Idealize.ShloMosaic.Pipeline (Dat)
open scoped BigOperators

/-! ## One tile's product at an index -/

/-- Entry (r, c) of a tile's product reads the left tile on row r … -/
theorem tile_lhs_0 (j : S5000x2.Idx) (q : dot_S5000x16_S16x2_S5000x2_1_0_0_1_n_n.contr.Idx) :
    (dot_S5000x16_S16x2_S5000x2_1_0_0_1_n_n.lhsIdx j q 0).val = (j 0).val := by
  unfold DotDims.lhsIdx
  rw [dif_neg (show ¬(0 : Fin S5000x16.rank) ∈ dot_S5000x16_S16x2_S5000x2_1_0_0_1_n_n.lhsBatch by decide), dif_pos (show (0 : Fin S5000x16.rank) ∈ dot_S5000x16_S16x2_S5000x2_1_0_0_1_n_n.lhsNonContracting by decide)]
  rfl
/-- … at the contracted position, -/
theorem tile_lhs_1 (j : S5000x2.Idx) (q : dot_S5000x16_S16x2_S5000x2_1_0_0_1_n_n.contr.Idx) :
    (dot_S5000x16_S16x2_S5000x2_1_0_0_1_n_n.lhsIdx j q 1).val = (q ⟨0, by decide⟩).val :=
  dot_S5000x16_S16x2_S5000x2_1_0_0_1_n_n.lhsIdx_val_of_single rfl j q
/-- and the right factor at the contracted position … -/
theorem tile_rhs_0 (j : S5000x2.Idx) (q : dot_S5000x16_S16x2_S5000x2_1_0_0_1_n_n.contr.Idx) :
    (dot_S5000x16_S16x2_S5000x2_1_0_0_1_n_n.rhsIdx j q 0).val = (q ⟨0, by decide⟩).val :=
  dot_S5000x16_S16x2_S5000x2_1_0_0_1_n_n.rhsIdx_val_of_single rfl j q
/-- … on column c. -/
theorem tile_rhs_1 (j : S5000x2.Idx) (q : dot_S5000x16_S16x2_S5000x2_1_0_0_1_n_n.contr.Idx) :
    (dot_S5000x16_S16x2_S5000x2_1_0_0_1_n_n.rhsIdx j q 1).val = (j 1).val := by
  unfold DotDims.rhsIdx
  rw [dif_neg (show ¬(1 : Fin S16x2.rank) ∈ dot_S5000x16_S16x2_S5000x2_1_0_0_1_n_n.rhsBatch by decide), dif_pos (show (1 : Fin S16x2.rank) ∈ dot_S5000x16_S16x2_S5000x2_1_0_0_1_n_n.rhsNonContracting by decide)]
  rfl

/-- Position (r, k) of the left tile. -/
abbrev tileL (j : S5000x2.Idx) (k : Fin 16) : S5000x16.Idx := fun a => match a with
  | ⟨0, _⟩ => ⟨(j 0).val, (j 0).isLt⟩
  | ⟨1, _⟩ => ⟨k.val, k.isLt⟩
/-- Position (k, c) of the right factor. -/
abbrev tileR (j : S5000x2.Idx) (k : Fin 16) : S16x2.Idx := fun a => match a with
  | ⟨0, _⟩ => ⟨k.val, k.isLt⟩
  | ⟨1, _⟩ => ⟨(j 1).val, (j 1).isLt⟩

/-- Over the extended reals the narrowing of the two factors is the identity and the accumulator starts at zero, so
    entry (r, c) of what the body stores is the plain sum over k of left(r, k) · right(k, c). -/
theorem tile_product (x0 : Vec Ideal S5000x16 .f32) (x1 : Vec Ideal S16x2 .f32) (j : S5000x2.Idx) :
    k1_pay1 (F := Ideal) x0 x1 j = ∑ k : Fin 16, x0 (tileL j k) * x1 (tileR j k) := by
  unfold k1_pay1
  rw [shapeCast_self]
  refine (Ideal.matmul_constant_zero_apply dot_S5000x16_S16x2_S5000x2_1_0_0_1_n_n none _ _ j).trans ?_
  rw [← Equiv.sum_comp (ValueIdx.contrEquiv1 dot_S5000x16_S16x2_S5000x2_1_0_0_1_n_n 16 rfl rfl).symm]
  refine Finset.sum_congr rfl fun k _ => ?_
  have hk := ValueIdx.contrEquiv1_symm_val dot_S5000x16_S16x2_S5000x2_1_0_0_1_n_n 16 rfl rfl k
  have el : dot_S5000x16_S16x2_S5000x2_1_0_0_1_n_n.lhsIdx j ((ValueIdx.contrEquiv1 dot_S5000x16_S16x2_S5000x2_1_0_0_1_n_n 16 rfl rfl).symm k) = tileL j k := funext fun a => Fin.ext (by
    match a with
    | ⟨0, _⟩ => exact tile_lhs_0 _ _
    | ⟨1, _⟩ => exact (tile_lhs_1 _ _).trans hk)
  have er : dot_S5000x16_S16x2_S5000x2_1_0_0_1_n_n.rhsIdx j ((ValueIdx.contrEquiv1 dot_S5000x16_S16x2_S5000x2_1_0_0_1_n_n 16 rfl rfl).symm k) = tileR j k := funext fun a => Fin.ext (by
    match a with
    | ⟨0, _⟩ => exact (tile_rhs_0 _ _).trans hk
    | ⟨1, _⟩ => exact tile_rhs_1 _ _)
  rw [el, er]
  rfl

/-! ## The whole product at an index -/

/-- The whole product, as the reference computes it: one contraction of the full left array with the right factor. -/
abbrev whole (X : FVec Ideal Cert.ReferenceIdeal.S100000x16 .f32) (Wt : FVec Ideal Cert.ReferenceIdeal.S16x2 .f32) :
    FVec Ideal Cert.ReferenceIdeal.S100000x2 .f32 :=
  Host.dotGeneral (F := Ideal) Cert.ReferenceIdeal.dot_S100000x16_S16x2_S100000x2_1_0_0_1_n_n none X Wt

/-- Its entry (r, c) is the sum over k of X(r, k) · W(k, c). -/
theorem whole_apply (X : FVec Ideal Cert.ReferenceIdeal.S100000x16 .f32) (Wt : FVec Ideal Cert.ReferenceIdeal.S16x2 .f32)
    (i : Cert.ReferenceIdeal.S100000x2.Idx) :
    whole X Wt i = ∑ k : Fin 16, X (Cert.ReferenceIdeal.Read.lidx_main_v45 i k) * Wt (Cert.ReferenceIdeal.Read.ridx_main_v45 i k) := by
  show Host.dotGeneral (F := Ideal) Cert.ReferenceIdeal.dot_S100000x16_S16x2_S100000x2_1_0_0_1_n_n none X Wt i = _
  simp only [Host.dotGeneral]
  rw [Ideal.dotGeneral_apply, ← Equiv.sum_comp (ValueIdx.contrEquiv1 Cert.ReferenceIdeal.dot_S100000x16_S16x2_S100000x2_1_0_0_1_n_n 16 rfl rfl).symm]
  refine Finset.sum_congr rfl fun k _ => ?_
  have hk := ValueIdx.contrEquiv1_symm_val Cert.ReferenceIdeal.dot_S100000x16_S16x2_S100000x2_1_0_0_1_n_n 16 rfl rfl k
  have el : Cert.ReferenceIdeal.dot_S100000x16_S16x2_S100000x2_1_0_0_1_n_n.lhsIdx i ((ValueIdx.contrEquiv1 Cert.ReferenceIdeal.dot_S100000x16_S16x2_S100000x2_1_0_0_1_n_n 16 rfl rfl).symm k) = Cert.ReferenceIdeal.Read.lidx_main_v45 i k := funext fun a => Fin.ext (by
    match a with
    | ⟨0, _⟩ => exact Cert.ReferenceIdeal.Read.lhs_main_v45_0 _ _
    | ⟨1, _⟩ => exact (Cert.ReferenceIdeal.Read.lhs_main_v45_1 _ _).trans hk)
  have er : Cert.ReferenceIdeal.dot_S100000x16_S16x2_S100000x2_1_0_0_1_n_n.rhsIdx i ((ValueIdx.contrEquiv1 Cert.ReferenceIdeal.dot_S100000x16_S16x2_S100000x2_1_0_0_1_n_n 16 rfl rfl).symm k) = Cert.ReferenceIdeal.Read.ridx_main_v45 i k := funext fun a => Fin.ext (by
    match a with
    | ⟨0, _⟩ => exact (Cert.ReferenceIdeal.Read.rhs_main_v45_0 _ _).trans hk
    | ⟨1, _⟩ => exact Cert.ReferenceIdeal.Read.rhs_main_v45_1 _ _)
  rw [el, er]

/-! ## From tiles to the array -/

variable (V : (c : Dev nD) → (b : Ref sig .tc) → Buf (Elt Ideal) ((c : Thread nD τ).loc b))

theorem origin : (![0, 0] : Fin 2 → Nat) = fun _ => 0 := funext fun a => by fin_cases a <;> rfl

/-- Where the tiles sit: point t takes rows 5000·t … 5000·t + 4999 of the left array, all its columns, the whole right
    factor, and writes the same rows of the result. -/
theorem tile_places : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left array as the region finds it, the right factor, and what the region leaves. -/
abbrev leftArr (c : Dev nD) : FVec Ideal Cert.ReferenceIdeal.S100000x16 .f32 := V c main_v44
abbrev rightArr (c : Dev nD) : FVec Ideal Cert.ReferenceIdeal.S16x2 .f32 := V c main_arg4

/-- WHAT POINT t WRITES BACK is tile t of the whole product of the arrays as the region finds them. -/
theorem flushed_eq (c : Dev nD) (t : Fin cfg1.N) :
    (dat1 V c).flushed 2 t = ((cfg1.win 2).blk t).view.read (Elt Ideal) (whole (leftArr V c) (rightArr V c)) := by
  show (cfg1.win 2).cut (grid1.coords t) ((dat1 V c).after 2 t) = _
  rw [after1_2]
  unfold out1_2
  rw [View.canon_unit_zero origin]
  simp only [View.ld_unit_zero (S := S5000x16) origin, View.ld_unit_zero (S := S16x2) origin]
  obtain ⟨e0, e1, e2, e3, e4, e5⟩ := tile_places t
  funext j
  show k1_pay1 (F := Ideal) (iblk1 V c 0 t) (iblk1 V c 1 t) j = whole (leftArr V c) (rightArr V c) (((cfg1.win 2).blk t).view.emb j)
  rw [tile_product, whole_apply]
  refine Finset.sum_congr rfl fun k _ => ?_
  have hl : iblk1 V c 0 t (tileL j k) = leftArr V c (Cert.ReferenceIdeal.Read.lidx_main_v45 (((cfg1.win 2).blk t).view.emb j) k) := by
    show V c main_v44 (((cfg1.win 0).blk t).view.emb (tileL j k)) = V c main_v44 _
    congr 1
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 16 + 1 * k.val = k.val; omega
  have hr : iblk1 V c 1 t (tileR j k) = rightArr V c (Cert.ReferenceIdeal.Read.ridx_main_v45 (((cfg1.win 2).blk t).view.emb j) k) := by
    show V c main_arg4 (((cfg1.win 1).blk t).view.emb (tileR j k)) = V c main_arg4 _
    congr 1
    funext a; apply Fin.ext
    match a with
    | ⟨0, _⟩ => show win1_1.index t (0 : Fin 2) * 16 + 1 * k.val = k.val; omega
    | ⟨1, _⟩ => show win1_1.index t (1 : Fin 2) * 2 + 1 * (j 1).val = win1_2.index t (1 : Fin 2) * 2 + 1 * (j 1).val; omega
  rw [hl, hr]

/-- An index of the result is in point t's tile iff each coordinate is in the tile's range on its axis. -/
theorem mem_tile (t : Fin cfg1.N) (i : S100000x2.Idx) :
    i ∈ ((cfg1.win 2).blk t).view.set ↔ ∀ a : Fin 2, win1_2.index t a * S5000x2.size a ≤ (i a).val ∧ (i a).val < win1_2.index t a * S5000x2.size a + S5000x2.size a := by
  show i ∈ ((View.whole main_v45).slice (win1_2.rect t)).set ↔ _
  rw [View.set_slice_whole, Rect.mem_set_unit]
  exact Iff.rfl

/-- The twenty tiles cover the result: row r lies in tile r / 5000. -/
theorem tiles_cover (i : S100000x2.Idx) :
    ∃ t : Fin cfg1.N, (cfg1.win 2).flush t = true ∧ i ∈ ((cfg1.win 2).blk t).view.set := by
  have hi0 : (i 0).val < 100000 := (i 0).isLt
  have hi1 : (i 1).val < 2 := (i 1).isLt
  have hN : cfg1.N = 20 := N_1
  let t : Fin cfg1.N := ⟨(i 0).val / 5000, by rw [hN]; omega⟩
  obtain ⟨e0, e1, e2, e3, e4, e5⟩ := tile_places t
  have ht : t.val = (i 0).val / 5000 := rfl
  refine ⟨t, flush1_2 t, ?_⟩
  rw [mem_tile]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 2 ≤ (i 1).val ∧ (i 1).val < win1_2.index t (1 : Fin 2) * 2 + 2; omega

/-- THE RESULT ARRAY after the region: the whole product of the two arrays the region was entered with. -/
theorem result_array (c : Dev nD) :
    (dat1 V c).arrAt 2 cfg1.N = whole (leftArr V c) (rightArr V c) :=
  (dat1 V c).arrAt_eq_of_cover 2 (whole (leftArr V c) (rightArr V c)) (fun t _ => flushed_eq V c t) tiles_cover

end Cert.KernelIdeal.SecondProduct

end
-- ==== Proof.Rounds.lean ====
import proofs.«176523_j42374147342368_1_alg».proof.Proof.Gen.KernelIdeal.Launch
import proofs.«176523_j42374147342368_1_alg».proof.Proof.Gen.ReferenceIdeal.Read

/-!
# One round of aggregation as one function

After the dense product h of a round, both programs do the same thing with it: gather the rows of h along the edge
sources (a negative source index wrapped by the node count first), scale row e by the weight of edge e, scatter-add the
scaled rows into the edge targets starting from zero, and add the bias to every row. `spread16` is that function for
the first round's 16 columns and `spread2` for the second round's 2, of h, the source and target lists, the edge
weights and the bias. The reference's stages are these functions of its earlier stages, and the kernel program's host
stretches apply them to whatever its buffers hold: both by unfolding, over variables, so that nothing about a
scatter-add or a gather is ever opened.
-/

noncomputable section

namespace Cert.ReferenceIdeal.Rounds

open Idealize.ShloMosaic Idealize.ShloMosaic.TcCoe
open Cert.ReferenceIdeal Cert.ReferenceIdeal.Facts₀ Cert.ReferenceIdeal.Read

/-- The first round's aggregation: 16 columns. -/
def spread16 (h : FVec Ideal S100000x16 .f32) (src dst : IVec S3300000 32) (w : FVec Ideal S3300000 .f32)
    (b : FVec Ideal S16 .f32) : FVec Ideal S100000x16 .f32 :=
  addf
    (Host.scatterAdd scatter_S100000x16_S3300000x1_S3300000x16_1_0_0_1
      (broadcastInDim S100000x16 ![] bcast_S_S100000x16 (constant (F := Ideal) S_ .f32 0x00000000#32))
      (broadcastInDim S3300000x1 ![0] bcast_S3300000_S3300000x1_0 dst)
      (mulf
        (Host.gather gather_S100000x16_S3300000x1_S3300000x16_1_0_n_n_0_1_116 h
          (broadcastInDim S3300000x1 ![0] bcast_S3300000_S3300000x1_0
            (select (cmpi .slt src (broadcastInDim S3300000 ![] bcast_S_S3300000 (constantI S_ 32 0#32)))
              (addi src (broadcastInDim S3300000 ![] bcast_S_S3300000 (constantI S_ 32 100000#32)))
              src)))
        (broadcastInDim S3300000x16 ![0, 1] bcast_S3300000x1_S3300000x16_0_1 (broadcastInDim S3300000x1 ![0] bcast_S3300000_S3300000x1_0 w))))
    (broadcastInDim S100000x16 ![0, 1] bcast_S1x16_S100000x16_0_1 (broadcastInDim S1x16 ![1] bcast_S16_S1x16_1 b))

/-- The second round's aggregation: 2 columns. -/
def spread2 (h : FVec Ideal S100000x2 .f32) (src dst : IVec S3300000 32) (w : FVec Ideal S3300000 .f32)
    (b : FVec Ideal S2 .f32) : FVec Ideal S100000x2 .f32 :=
  addf
    (Host.scatterAdd scatter_S100000x2_S3300000x1_S3300000x2_1_0_0_1
      (broadcastInDim S100000x2 ![] bcast_S_S100000x2 (constant (F := Ideal) S_ .f32 0x00000000#32))
      (broadcastInDim S3300000x1 ![0] bcast_S3300000_S3300000x1_0 dst)
      (mulf
        (Host.gather gather_S100000x2_S3300000x1_S3300000x2_1_0_n_n_0_1_12 h
          (broadcastInDim S3300000x1 ![0] bcast_S3300000_S3300000x1_0
            (select (cmpi .slt src (broadcastInDim S3300000 ![] bcast_S_S3300000 (constantI S_ 32 0#32)))
              (addi src (broadcastInDim S3300000 ![] bcast_S_S3300000 (constantI S_ 32 100000#32)))
              src)))
        (broadcastInDim S3300000x2 ![0, 1] bcast_S3300000x1_S3300000x2_0_1 (broadcastInDim S3300000x1 ![0] bcast_S3300000_S3300000x1_0 w))))
    (broadcastInDim S100000x2 ![0, 1] bcast_S1x2_S100000x2_0_1 (broadcastInDim S1x2 ![1] bcast_S2_S1x2_1 b))

/-- The reference's first round before max(·, 0) is the aggregation of its first product. -/
theorem round1_eq (x0 : (⟨S100000x512, .f32⟩ : BufTy).Contents (Elt Ideal)) (x1 : (⟨S2x3200000, .i32⟩ : BufTy).Contents (Elt Ideal))
    (x2 : (⟨S512x16, .f32⟩ : BufTy).Contents (Elt Ideal)) (x3 : (⟨S16, .f32⟩ : BufTy).Contents (Elt Ideal)) :
    val_main_v43 (F := Ideal) x0 x1 x2 x3
      = spread16 (val_main_v7 (F := Ideal) x0 x2) (val_main_v3 (F := Ideal) x1) (val_main_v6 (F := Ideal) x1) (val_main_v27 (F := Ideal) x1) x3 := rfl

/-- The reference's result is the aggregation of its second product, with the edge weights it computes afresh. -/
theorem round2_eq (x0 : (⟨S100000x512, .f32⟩ : BufTy).Contents (Elt Ideal)) (x1 : (⟨S2x3200000, .i32⟩ : BufTy).Contents (Elt Ideal))
    (x2 : (⟨S512x16, .f32⟩ : BufTy).Contents (Elt Ideal)) (x3 : (⟨S16, .f32⟩ : BufTy).Contents (Elt Ideal))
    (x4 : (⟨S16x2, .f32⟩ : BufTy).Contents (Elt Ideal)) (x5 : (⟨S2, .f32⟩ : BufTy).Contents (Elt Ideal)) :
    val_main_v81 (F := Ideal) x0 x1 x2 x3 x4 x5
      = spread2 (val_main_v45 (F := Ideal) x0 x1 x2 x3 x4) (val_main_v3 (F := Ideal) x1) (val_main_v6 (F := Ideal) x1) (val_main_v65 (F := Ideal) x1) x5 := rfl

end Cert.ReferenceIdeal.Rounds

namespace Cert.KernelIdeal.Rounds

open Idealize.ShloMosaic Idealize.ShloMosaic.TcCoe Idealize.ShloMosaic.StableHlo
open Cert.KernelIdeal Cert.KernelIdeal.Facts₀

/-- The kernel program's host operations after its first launch, of any h, source and target lists, weights and bias,
    are the first round's aggregation. -/
theorem spread16_here (h : FVec Ideal S100000x16 .f32) (src dst : IVec S3300000 32) (w : FVec Ideal S3300000 .f32)
    (b : FVec Ideal S16 .f32) :
    addf
    (Host.scatterAdd scatter_S100000x16_S3300000x1_S3300000x16_1_0_0_1
      (broadcastInDim S100000x16 ![] bcast_S_S100000x16 (constant (F := Ideal) S_ .f32 0x00000000#32))
      (broadcastInDim S3300000x1 ![0] bcast_S3300000_S3300000x1_0 dst)
      (mulf
        (Host.gather gather_S100000x16_S3300000x1_S3300000x16_1_0_n_n_0_1_116 h
          (broadcastInDim S3300000x1 ![0] bcast_S3300000_S3300000x1_0
            (select (cmpi .slt src (broadcastInDim S3300000 ![] bcast_S_S3300000 (constantI S_ 32 0#32)))
              (addi src (broadcastInDim S3300000 ![] bcast_S_S3300000 (constantI S_ 32 100000#32)))
              src)))
        (broadcastInDim S3300000x16 ![0, 1] bcast_S3300000x1_S3300000x16_0_1 (broadcastInDim S3300000x1 ![0] bcast_S3300000_S3300000x1_0 w))))
    (broadcastInDim S100000x16 ![0, 1] bcast_S1x16_S100000x16_0_1 (broadcastInDim S1x16 ![1] bcast_S16_S1x16_1 b))
    = Cert.ReferenceIdeal.Rounds.spread16 h src dst w b := rfl

/-- The kernel program's host operations after its second launch are the second round's aggregation. -/
theorem spread2_here (h : FVec Ideal S100000x2 .f32) (src dst : IVec S3300000 32) (w : FVec Ideal S3300000 .f32)
    (b : FVec Ideal S2 .f32) :
    addf
    (Host.scatterAdd scatter_S100000x2_S3300000x1_S3300000x2_1_0_0_1
      (broadcastInDim S100000x2 ![] bcast_S_S100000x2 (constant (F := Ideal) S_ .f32 0x00000000#32))
      (broadcastInDim S3300000x1 ![0] bcast_S3300000_S3300000x1_0 dst)
      (mulf
        (Host.gather gather_S100000x2_S3300000x1_S3300000x2_1_0_n_n_0_1_12 h
          (broadcastInDim S3300000x1 ![0] bcast_S3300000_S3300000x1_0
            (select (cmpi .slt src (broadcastInDim S3300000 ![] bcast_S_S3300000 (constantI S_ 32 0#32)))
              (addi src (broadcastInDim S3300000 ![] bcast_S_S3300000 (constantI S_ 32 100000#32)))
              src)))
        (broadcastInDim S3300000x2 ![0, 1] bcast_S3300000x1_S3300000x2_0_1 (broadcastInDim S3300000x1 ![0] bcast_S3300000_S3300000x1_0 w))))
    (broadcastInDim S100000x2 ![0, 1] bcast_S1x2_S100000x2_0_1 (broadcastInDim S1x2 ![1] bcast_S2_S1x2_1 b))
    = Cert.ReferenceIdeal.Rounds.spread2 h src dst w b := rfl

/-- Between the launches: max(·, 0) written through the called function's own buffers, whose types are the values'. -/
theorem relu_here (A : FVec Ideal S100000x16 .f32) :
    (TRef.of (T := ⟨S100000x16, .f32⟩) main_v44).toBuf (Val := Elt Ideal)
      (maximumf (F := Ideal) (s := S100000x16) (φ := .f32) ((TRef.of (T := ⟨S100000x16, .f32⟩) main_v43).ofBuf (Val := Elt Ideal) A)
        ((TRef.of (T := ⟨S100000x16, .f32⟩) main_call0_v0).ofBuf (Val := Elt Ideal)
          ((TRef.of (T := ⟨S100000x16, .f32⟩) main_call0_v0).toBuf (Val := Elt Ideal)
            (broadcastInDim (α := Elt Ideal .f32) S100000x16 ![] bcast_S_S100000x16
              ((TRef.of (T := ⟨S_, .f32⟩) main_call0_cst).ofBuf (Val := Elt Ideal)
                ((TRef.of (T := ⟨S_, .f32⟩) main_call0_cst).toBuf (Val := Elt Ideal) (constant (F := Ideal) S_ .f32 0x00000000#32)))))))
    = maximumf A (Cert.ReferenceIdeal.Read.val_main_call0_v0 (F := Ideal)) := rfl

end Cert.KernelIdeal.Rounds

end
-- ==== Proof.Stages.lean ====
import proofs.«176523_j42374147342368_1_alg».proof.Proof.Gen.KernelIdeal.Frame
import proofs.«176523_j42374147342368_1_alg».proof.Proof.Gen.ReferenceIdeal.Read
import proofs.«176523_j42374147342368_1_alg».proof.Proof.Region0
import proofs.«176523_j42374147342368_1_alg».proof.Proof.Region1
import proofs.«176523_j42374147342368_1_alg».proof.Proof.Rounds
import Idealize.ShloMosaic.Lib.StableHlo.Run

/-!
# The kernel program's buffers, boundary by boundary, are the reference's stages

The kernel program and the reference do the same thing to the graph: append a self loop to every node, count each
node's in-degree d by a scatter-add of ones, weigh edge (s → t) by d(s)^(-1/2) · d(t)^(-1/2), and twice over take a
dense product, gather its rows along the edge sources, scale by the edge weight, scatter-add into the edge targets and
add a bias, with max(·, 0) between the two rounds. They differ only in WHERE the two dense products are taken (the kernel
program's two launches, tile by tile; the reference's two whole contractions) and in that the reference computes the edge
weights a second time for the second round. Neither difference changes a value: a launch leaves the whole product
(`FirstProduct.result_array`, `SecondProduct.result_array`), and the recomputed weights are the same expression of
the edge list. So at every boundary between the kernel program's host stretches and launches each buffer that is read
later holds exactly the reference's stage of the same name, as a function of the six argument arrays — no law of
arithmetic is needed, only that equal operations of equal operands are equal.
-/

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg) (c : Dev nD)

/-! ## The six argument arrays as launched -/

/-- The node features. -/
abbrev feat : (⟨Cert.ReferenceIdeal.S100000x512, .f32⟩ : BufTy).Contents (Elt Ideal) := m ((c : Thread nD τ).loc main_arg0)
/-- The edge list: row 0 the sources, row 1 the targets. -/
abbrev edges : (⟨Cert.ReferenceIdeal.S2x3200000, .i32⟩ : BufTy).Contents (Elt Ideal) := m ((c : Thread nD τ).loc main_arg1)
/-- The first round's weight and bias, then the second round's. -/
abbrev wt1 : (⟨Cert.ReferenceIdeal.S512x16, .f32⟩ : BufTy).Contents (Elt Ideal) := m ((c : Thread nD τ).loc main_arg2)
abbrev bias1 : (⟨Cert.ReferenceIdeal.S16, .f32⟩ : BufTy).Contents (Elt Ideal) := m ((c : Thread nD τ).loc main_arg3)
abbrev wt2 : (⟨Cert.ReferenceIdeal.S16x2, .f32⟩ : BufTy).Contents (Elt Ideal) := m ((c : Thread nD τ).loc main_arg4)
abbrev bias2 : (⟨Cert.ReferenceIdeal.S2, .f32⟩ : BufTy).Contents (Elt Ideal) := m ((c : Thread nD τ).loc main_arg5)

/-! ## Reading a stretch of host operations -/

/-- What a buffer holds after a stretch, as the stretch's operations of what the buffers held before it. One pass
    reads every operation's result at its own buffer and passes the other buffers through, each shared operand visited
    once; the operands of the two joins (edge row ++ self loops) sit inside dependent pairs, where only a rewrite
    with a motive reaches: they are few and identical, and the closing loop reads them. -/
macro "read_stretch" : tactic =>
  `(tactic| (
    simp (disch := decide) only [StableHlo.after_cons, StableHlo.after_nil,
      StableHlo.nullary_result', StableHlo.unary_result', StableHlo.binary_result', StableHlo.ternary_result',
      StableHlo.nullary_result_ne', StableHlo.unary_result_ne', StableHlo.binary_result_ne', StableHlo.ternary_result_ne']
    repeat (first
      | rw [StableHlo.nullary_result] | rw [StableHlo.unary_result] | rw [StableHlo.binary_result] | rw [StableHlo.ternary_result]
      | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide))))

/-! ## Entering the first launch -/

/-- The edge sources with the self loops appended. -/
theorem src_entry : W1 m ρ c (Proc.devRef .tc main_v3) = val_main_v3 (F := Ideal) (edges m c) := by
  show StableHlo.after hostOps0 (W0 m ρ c) (Proc.devRef .tc main_v3) = _
  read_stretch <;> rfl
/-- The edge targets with the self loops appended. -/
theorem dst_entry : W1 m ρ c (Proc.devRef .tc main_v6) = val_main_v6 (F := Ideal) (edges m c) := by
  show StableHlo.after hostOps0 (W0 m ρ c) (Proc.devRef .tc main_v6) = _
  read_stretch <;> rfl
/-- The edge weights d(s)^(-1/2) · d(t)^(-1/2). -/
theorem weight_entry : W1 m ρ c (Proc.devRef .tc main_v26) = val_main_v27 (F := Ideal) (edges m c) := by
  show StableHlo.after hostOps0 (W0 m ρ c) (Proc.devRef .tc main_v26) = _
  read_stretch <;> rfl
/-- No host operation before the first launch writes an argument array. -/
theorem feat_entry : W1 m ρ c (Proc.devRef .tc main_arg0) = feat m c := by
  show StableHlo.after hostOps0 (W0 m ρ c) (Proc.devRef .tc main_arg0) = _
  read_stretch <;> rfl
theorem wt1_entry : W1 m ρ c (Proc.devRef .tc main_arg2) = wt1 m c := by
  show StableHlo.after hostOps0 (W0 m ρ c) (Proc.devRef .tc main_arg2) = _
  read_stretch <;> rfl
theorem bias1_entry : W1 m ρ c (Proc.devRef .tc main_arg3) = bias1 m c := by
  show StableHlo.after hostOps0 (W0 m ρ c) (Proc.devRef .tc main_arg3) = _
  read_stretch <;> rfl
theorem wt2_entry : W1 m ρ c (Proc.devRef .tc main_arg4) = wt2 m c := by
  show StableHlo.after hostOps0 (W0 m ρ c) (Proc.devRef .tc main_arg4) = _
  read_stretch <;> rfl
theorem bias2_entry : W1 m ρ c (Proc.devRef .tc main_arg5) = bias2 m c := by
  show StableHlo.after hostOps0 (W0 m ρ c) (Proc.devRef .tc main_arg5) = _
  read_stretch <;> rfl

/-! ## Leaving the first launch -/

/-- The first launch leaves the whole product of the features with the first weight … -/
theorem product1_exit : W2 m ρ c (Proc.devRef .tc main_v27) = val_main_v7 (F := Ideal) (feat m c) (wt1 m c) := by
  refine (W2_arr m ρ c 2).trans ?_
  rw [FirstProduct.result_array (V1 m ρ) c]
  show Host.dotGeneral (F := Ideal) Cert.ReferenceIdeal.dot_S100000x512_S512x16_S100000x16_1_0_0_1_n_n none
    (W1 m ρ c (Proc.devRef .tc main_arg0)) (W1 m ρ c (Proc.devRef .tc main_arg2)) = _
  rw [feat_entry, wt1_entry]
  rfl
/-- … and touches nothing else that is read later. -/
theorem src_exit1 : W2 m ρ c (Proc.devRef .tc main_v3) = val_main_v3 (F := Ideal) (edges m c) :=
  (W2_of_ne m ρ c main_v3 (by decide)).trans (src_entry m ρ c)
theorem dst_exit1 : W2 m ρ c (Proc.devRef .tc main_v6) = val_main_v6 (F := Ideal) (edges m c) :=
  (W2_of_ne m ρ c main_v6 (by decide)).trans (dst_entry m ρ c)
theorem weight_exit1 : W2 m ρ c (Proc.devRef .tc main_v26) = val_main_v27 (F := Ideal) (edges m c) :=
  (W2_of_ne m ρ c main_v26 (by decide)).trans (weight_entry m ρ c)
theorem bias1_exit1 : W2 m ρ c (Proc.devRef .tc main_arg3) = bias1 m c :=
  (W2_of_ne m ρ c main_arg3 (by decide)).trans (bias1_entry m ρ c)
theorem wt2_exit1 : W2 m ρ c (Proc.devRef .tc main_arg4) = wt2 m c :=
  (W2_of_ne m ρ c main_arg4 (by decide)).trans (wt2_entry m ρ c)
theorem bias2_exit1 : W2 m ρ c (Proc.devRef .tc main_arg5) = bias2 m c :=
  (W2_of_ne m ρ c main_arg5 (by decide)).trans (bias2_entry m ρ c)

/-! ## Entering the second launch -/

/-- The first round's output after max(·, 0): gathered along the sources, weighted, scatter-added into the targets,
    the bias added. -/
theorem hidden_entry : W4 m ρ c (Proc.devRef .tc main_v44)
    = val_main_v44 (F := Ideal) (feat m c) (edges m c) (wt1 m c) (bias1 m c) := by
  show StableHlo.after hostOps1_1 (StableHlo.after hostOps1 (W2 m ρ c)) (Proc.devRef .tc main_v44) = _
  read_stretch
  rw [src_exit1, dst_exit1, weight_exit1, bias1_exit1, product1_exit]
  refine (Rounds.relu_here _).trans ?_
  rw [Rounds.spread16_here]
  unfold val_main_v44
  rw [Cert.ReferenceIdeal.Rounds.round1_eq]
/-- The host operations between the launches write none of the buffers the second round still reads. -/
theorem src_entry2 : W4 m ρ c (Proc.devRef .tc main_v3) = val_main_v3 (F := Ideal) (edges m c) := by
  show StableHlo.after hostOps1_1 (StableHlo.after hostOps1 (W2 m ρ c)) (Proc.devRef .tc main_v3) = _
  read_stretch
  exact src_exit1 m ρ c
theorem dst_entry2 : W4 m ρ c (Proc.devRef .tc main_v6) = val_main_v6 (F := Ideal) (edges m c) := by
  show StableHlo.after hostOps1_1 (StableHlo.after hostOps1 (W2 m ρ c)) (Proc.devRef .tc main_v6) = _
  read_stretch
  exact dst_exit1 m ρ c
theorem weight_entry2 : W4 m ρ c (Proc.devRef .tc main_v26) = val_main_v27 (F := Ideal) (edges m c) := by
  show StableHlo.after hostOps1_1 (StableHlo.after hostOps1 (W2 m ρ c)) (Proc.devRef .tc main_v26) = _
  read_stretch
  exact weight_exit1 m ρ c
theorem wt2_entry2 : W4 m ρ c (Proc.devRef .tc main_arg4) = wt2 m c := by
  show StableHlo.after hostOps1_1 (StableHlo.after hostOps1 (W2 m ρ c)) (Proc.devRef .tc main_arg4) = _
  read_stretch
  exact wt2_exit1 m ρ c
theorem bias2_entry2 : W4 m ρ c (Proc.devRef .tc main_arg5) = bias2 m c := by
  show StableHlo.after hostOps1_1 (StableHlo.after hostOps1 (W2 m ρ c)) (Proc.devRef .tc main_arg5) = _
  read_stretch
  exact bias2_exit1 m ρ c

/-! ## Leaving the second launch -/

/-- The second launch leaves the whole product of the hidden layer with the second weight … -/
theorem product2_exit : W5 m ρ c (Proc.devRef .tc main_v45)
    = val_main_v45 (F := Ideal) (feat m c) (edges m c) (wt1 m c) (bias1 m c) (wt2 m c) := by
  refine (W5_arr m ρ c 2).trans ?_
  rw [SecondProduct.result_array (V4 m ρ) c]
  show Host.dotGeneral (F := Ideal) Cert.ReferenceIdeal.dot_S100000x16_S16x2_S100000x2_1_0_0_1_n_n none
    (W4 m ρ c (Proc.devRef .tc main_v44)) (W4 m ρ c (Proc.devRef .tc main_arg4)) = _
  rw [hidden_entry, wt2_entry2]
  rfl
/-- … and touches nothing else that is read later. -/
theorem src_exit2 : W5 m ρ c (Proc.devRef .tc main_v3) = val_main_v3 (F := Ideal) (edges m c) :=
  (W5_of_ne m ρ c main_v3 (by decide)).trans (src_entry2 m ρ c)
theorem dst_exit2 : W5 m ρ c (Proc.devRef .tc main_v6) = val_main_v6 (F := Ideal) (edges m c) :=
  (W5_of_ne m ρ c main_v6 (by decide)).trans (dst_entry2 m ρ c)
theorem weight_exit2 : W5 m ρ c (Proc.devRef .tc main_v26) = val_main_v27 (F := Ideal) (edges m c) :=
  (W5_of_ne m ρ c main_v26 (by decide)).trans (weight_entry2 m ρ c)
theorem bias2_exit2 : W5 m ρ c (Proc.devRef .tc main_arg5) = bias2 m c :=
  (W5_of_ne m ρ c main_arg5 (by decide)).trans (bias2_entry2 m ρ c)

/-! ## The result -/

/-- The reference weighs the second round's edges by weights it computes afresh; they are the same expression of the
    edge list as the first round's. -/
theorem weight_again (e : (⟨Cert.ReferenceIdeal.S2x3200000, .i32⟩ : BufTy).Contents (Elt Ideal)) :
    val_main_v65 (F := Ideal) e = val_main_v27 (F := Ideal) e := rfl

/-- THE RESULT BUFFER at the return holds the reference's result as a function of the six argument arrays. -/
theorem result : W6 m ρ c (Proc.devRef .tc main_v61)
    = val_main_v81 (F := Ideal) (feat m c) (edges m c) (wt1 m c) (bias1 m c) (wt2 m c) (bias2 m c) := by
  show StableHlo.after hostOps2 (W5 m ρ c) (Proc.devRef .tc main_v61) = _
  read_stretch
  rw [src_exit2, dst_exit2, weight_exit2, bias2_exit2, product2_exit]
  rw [Rounds.spread2_here, Cert.ReferenceIdeal.Rounds.round2_eq, weight_again]

end Cert.KernelIdeal.Stages

end
-- ==== Proof.lean ====
/-
  Two rounds of graph convolution on 100000 nodes and 3200000 edges: kernel program against reference.

  Both programs append a self loop to every node, count each node's in-degree d by a scatter-add of ones, weigh edge
  (s → t) by d(s)^(-1/2) · d(t)^(-1/2), and in each round multiply the node features with a weight matrix, gather the
  product's rows along the edge sources, scale them by the edge weights, scatter-add them into the edge targets and add
  a bias; between the rounds they take max(·, 0). The kernel program takes the two dense products ([100000, 512] · [512, 16]
  and [100000, 16] · [16, 2]) in a launch each, twenty tiles of 5000 rows, the factors narrowed to half width before the
  multiplication; the reference takes each as one whole contraction, and computes the edge weights once per round.

  Over the extended reals a change of width is the identity, and entry (r, c) of a tile's product and of the whole
  product are the same sum over k of left(r, k) · right(k, c); the tiles are disjoint row ranges that fill the result. So
  each launch leaves exactly the reference's whole product (Proof/Region0.lean, Proof/Region1.lean). Everything else is
  the same operations applied to the same operands in both programs — the recomputed edge weights are the same
  expression of the edge list — so buffer by buffer the kernel program holds the reference's stages, and the result
  buffers agree (Proof/Stages.lean). No law of arithmetic beyond this is used, and finiteness of the inputs is not
  needed: gathers and scatter-adds with any indices, infinite values and all, are the same function on both sides.

  The kernel program runs, faults nowhere and leaves its arguments as they were by its generated frame; the same run
  read once more at the result buffer (Proof/KernelRun.lean) names the result. The reference's run is its generated one.
  The idealisation rewrote no operation, so there is nothing to preserve.
-/
import proofs.«176523_j42374147342368_1_alg».proof.Defs
import proofs.«176523_j42374147342368_1_alg».proof.Proof.Gen.Kernel
import proofs.«176523_j42374147342368_1_alg».proof.Proof.Gen.Kernel.Frame
import proofs.«176523_j42374147342368_1_alg».proof.Proof.Gen.KernelIdeal
import proofs.«176523_j42374147342368_1_alg».proof.Proof.Gen.KernelIdeal.Frame
import proofs.«176523_j42374147342368_1_alg».proof.Proof.Gen.ReferenceIdeal
import proofs.«176523_j42374147342368_1_alg».proof.Proof.Gen.ReferenceIdeal.Run
import proofs.«176523_j42374147342368_1_alg».proof.Proof.Gen.ReferenceIdeal.Read
import proofs.«176523_j42374147342368_1_alg».proof.Proof.Gen.Pre_finite_inputs
import proofs.«176523_j42374147342368_1_alg».proof.Proof.KernelRun
import proofs.«176523_j42374147342368_1_alg».proof.Proof.Stages
import Idealize.ShloMosaic.Adequacy
import Idealize.ShloMosaic.Init

noncomputable section

namespace Cert.Proof

open Idealize.ShloMosaic Idealize.SL.Sem

/-- The kernel program as printed runs and keeps its arguments. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference runs and keeps its arguments: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the same result: the kernel program's result
    buffer holds the reference's last stage as a function of the arguments (`Stages.result`), and the reference's run
    ends at that stage of its own arguments. -/
theorem same_result : Cert.algebraic_KernelIdeal_ReferenceIdeal := by
  intro m ρ m' ρ' _ hagree
  refine ⟨_, Cert.KernelIdeal.ValueRun.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v81_eq, h0, h1, h2, h3, h4, h5]
  exact (Cert.KernelIdeal.Stages.result m ρ c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, same_result⟩

end Cert.Proof

end
